-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x512 : Shape := ⟨2, ![512, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S4096x512 .f32) (main_arg1 : FVec F S4096x4096 .f32) (main_arg2 : FVec F S512x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S4096x512 : Shape := ⟨2, ![4096, 512]⟩
abbrev S4096x4096 : Shape := ⟨2, ![4096, 4096]⟩
abbrev S512x512 : Shape := ⟨2, ![512, 512]⟩
abbrev S1024x4096 : Shape := ⟨2, ![1024, 4096]⟩
abbrev S1024x512 : Shape := ⟨2, ![1024, 512]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x512, .f32⟩
  | .hbm, ⟨3, _⟩ => ⟨S4096x512, .f32⟩
  | .local _ .vmem, ⟨0, _⟩ => ⟨S4096x512, .f32⟩
  | .local _ .vmem, ⟨1, _⟩ => ⟨S512x512, .f32⟩
  | .local _ .vmem, ⟨2, _⟩ => ⟨S1024x4096, .f32⟩
  | .local _ .vmem, ⟨3, _⟩ => ⟨S1024x4096, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S4096x512_S4096x512_0_0 : ∀ a, (![0, 0] : Fin 2 → Nat) a + S4096x512.size a ≤ S4096x512.size a
  h_S4096x512 : 0 < S4096x512.numel
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  shapeCasts_S4096x512_S4096x512 : S4096x512.ShapeCasts S4096x512
  packedbf16_S4096x512_S4096x512_0_0 : (Rect.unit (s := S4096x512) ![0, 0] S4096x512.size inb_S4096x512_S4096x512_0_0).PackedRows (EltTy.packing .bf16)
  inb_S1024x4096_S1024x4096_0_0 : ∀ a, (![0, 0] : Fin 2 → Nat) a + S1024x4096.size a ≤ S1024x4096.size a
  h_S1024x4096 : 0 < S1024x4096.numel
  reduces_S1024x4096_S1024 : S1024x4096.Reduces [1] S1024
  shapeCasts_S1024_S1024x1 : S1024.ShapeCasts S1024x1
  broadcasts_S1024x1_S1024x512 : S1024x1.Broadcasts S1024x512
  inb_S1024x512_S1024x512_0_0 : ∀ a, (![0, 0] : Fin 2 → Nat) a + S1024x512.size a ≤ S1024x512.size a
  h_S1024x512 : 0 < S1024x512.numel
  dot_S4096x512_S512x512_S4096x512_1_0_0_1_n_n_wf : DotDims.WF S4096x512 S512x512 S4096x512 [1] [0] [0] [1] [] []
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x512.size a
  hwx0_0 : ∀ i : grid0.Coords, EltTy.bits .f32 = 32 ∨ (Rect.block (s := S4096x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S4096x4096.size a
  hwx0_2 : ∀ i : grid0.Coords, EltTy.bits .f32 = 32 ∨ (Rect.block (s := S4096x4096) S1024x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x512.size a
  hwx0_3 : ∀ i : grid0.Coords, EltTy.bits .f32 = 32 ∨ (Rect.block (s := S4096x512) S1024x512.size (cc0_transform_3 i) (hinb0_3 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_arg0) S4096x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x512 : Shape := ⟨2, ![4096, 512]⟩
abbrev S4096x4096 : Shape := ⟨2, ![4096, 4096]⟩
abbrev S512x512 : Shape := ⟨2, ![512, 512]⟩
abbrev S_ : Shape := ⟨0, ![]⟩
abbrev S4096 : Shape := ⟨1, ![4096]⟩
abbrev S4096x1 : Shape := ⟨2, ![4096, 1]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x512, .f32⟩
  | .hbm, ⟨8, _⟩ => ⟨S4096x512, .f32⟩
  | .hbm, ⟨9, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  dot_S4096x512_S512x512_S4096x512_1_0_0_1_n_n_wf : DotDims.WF S4096x512 S512x512 S4096x512 [1] [0] [0] [1] [] []
  dot_S4096x4096_S4096x512_S4096x512_1_0_0_1_n_n_wf : DotDims.WF S4096x4096 S4096x512 S4096x512 [1] [0] [0] [1] [] []

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf

class Facts : Prop extends Facts₀ where

variable [Facts]
-- ==== Proof.MeanSpec.lean ====
/-
  The mathematics of this certificate, stated once with no program in sight.

  A graph-convolution layer with mean aggregation over a dense adjacency matrix: for features
  `x` (4096 × 512), weights `w` (512 × 512) and adjacency `adj` (4096 × 4096), over the extended reals,

      lin x w (k, j)        = ∑ l, x (k, l) · w (l, j)                     (the dense linear layer)
      degree adj r          = ∑ k, adj (r, k)                              (row r's neighbour count)
      meanAgg x adj w (r,j) = (∑ k, adj (r, k) · lin x w (k, j)) / degree adj r

  with the quotient the total division of the extended reals (`Ideal.div`).  Both programs compute exactly
  these nested sums, so no algebraic law beyond `0 + a = a` joins them and finiteness of the inputs is never used.
-/
import Idealize.ShloMosaic.PureOps.Ideal
import Idealize.ShloMosaic.Lib.ValueIdx

noncomputable section

open scoped BigOperators

namespace Cert.GraphMean

open Idealize.ShloMosaic Idealize.ShloMosaic.ValueIdx

/-- Node features, and the layer's result: 4096 nodes by 512 channels. -/
abbrev SFeat : Shape := ⟨2, ![4096, 512]⟩
/-- The dense adjacency matrix. -/
abbrev SAdj : Shape := ⟨2, ![4096, 4096]⟩
/-- The weight matrix. -/
abbrev SWt : Shape := ⟨2, ![512, 512]⟩

/-- Entry `(k, j)` of the linear layer `x · w`. -/
def lin (x : SFeat.Idx → EReal) (w : SWt.Idx → EReal) (k : Fin 4096) (j : Fin 512) : EReal :=
  ∑ l : Fin 512, x (ix2 k l) * w (ix2 l j)

/-- The linear layer as an array. -/
def linArr (x : SFeat.Idx → EReal) (w : SWt.Idx → EReal) : SFeat.Idx → EReal :=
  fun i => lin x w (i 0) (i 1)

/-- Row `r`'s degree: the sum of the adjacency row. -/
def degree (adj : SAdj.Idx → EReal) (r : Fin 4096) : EReal :=
  ∑ k : Fin 4096, adj (ix2 r k)

/-- Entry `(r, j)` of the aggregated features: the adjacency row against column `j` of an array `h`. -/
def aggr (adj : SAdj.Idx → EReal) (h : SFeat.Idx → EReal) (r : Fin 4096) (j : Fin 512) : EReal :=
  ∑ k : Fin 4096, adj (ix2 r k) * h (ix2 k j)

/-- The layer: the mean over each node's neighbours of the linearly transformed features. -/
def meanAgg (x : SFeat.Idx → EReal) (adj : SAdj.Idx → EReal) (w : SWt.Idx → EReal) : SFeat.Idx → EReal :=
  fun i => Ideal.div (aggr adj (linArr x w) (i 0) (i 1)) (degree adj (i 0))

theorem linArr_ix2 (x : SFeat.Idx → EReal) (w : SWt.Idx → EReal) (k : Fin 4096) (j : Fin 512) :
    linArr x w (ix2 k j) = lin x w k j := rfl

theorem meanAgg_ix2 (x : SFeat.Idx → EReal) (adj : SAdj.Idx → EReal) (w : SWt.Idx → EReal) (r : Fin 4096) (j : Fin 512) :
    meanAgg x adj w (ix2 r j) = Ideal.div (aggr adj (linArr x w) r j) (degree adj r) := rfl

end Cert.GraphMean

end
-- ==== Proof.RefIsMean.lean ====
/-
  The reference is the layer.

  Read one operation at a time, the reference's result at `(r, j)` is the host quotient of
  `∑ k, adj (r, k) · (∑ l, x (k, l) · w (l, j))` by `0 + ∑ k, adj (r, k)`: the two matrix products as plain sums over
  their one contracted axis, the row sum from its zero initial value, the two broadcasts reading the row's degree at
  every column.  With `0 + a = a` that is `meanAgg x adj w (r, j)`.
-/
import proofs.«166464_g35794257445170_cont_sun_m_1054_13_alg».proof.Proof.Gen.ReferenceIdeal.Read
import proofs.«166464_g35794257445170_cont_sun_m_1054_13_alg».proof.Proof.MeanSpec

noncomputable section

open scoped BigOperators

namespace Cert.GraphMean.Ref

open Cert.ReferenceIdeal Cert.ReferenceIdeal.Read Idealize.ShloMosaic Idealize.ShloMosaic.ValueIdx Cert.GraphMean

/-! ### The reference's composed index functions, by coordinates -/

theorem aggr_lhs (r : Fin 4096) (j : Fin 512) (k : Fin 4096) :
    lidx_main_v3 (ix2 r j) k = ix2 r k :=
  funext fun a => Fin.ext (by match a with | ⟨0, _⟩ => rfl | ⟨1, _⟩ => rfl)

theorem aggr_rhs (r : Fin 4096) (j : Fin 512) (k : Fin 4096) :
    ridx_main_v3 (ix2 r j) k = ix2 k j :=
  funext fun a => Fin.ext (by match a with | ⟨0, _⟩ => rfl | ⟨1, _⟩ => rfl)

theorem lin_lhs (k : Fin 4096) (j : Fin 512) (l : Fin 512) :
    lidx_main_v0 (ix2 k j) l = ix2 k l :=
  funext fun a => Fin.ext (by match a with | ⟨0, _⟩ => rfl | ⟨1, _⟩ => rfl)

theorem lin_rhs (k : Fin 4096) (j : Fin 512) (l : Fin 512) :
    ridx_main_v0 (ix2 k j) l = ix2 l j :=
  funext fun a => Fin.ext (by match a with | ⟨0, _⟩ => rfl | ⟨1, _⟩ => rfl)

theorem degree_idx (r : Fin 4096) (j : Fin 512) (k : Fin 4096) :
    idx_main_v1 (idx_main_v2 (idx_main_v4 (ix2 r j))) k = ix2 r k :=
  funext fun a => Fin.ext (by match a with | ⟨0, _⟩ => rfl | ⟨1, _⟩ => rfl)

/-- The reference's result, as a function of its three arguments, is the layer `meanAgg`. -/
theorem ref_is_meanAgg (x0 : (⟨S4096x512, .f32⟩ : BufTy).Contents (Elt Ideal)) (x1 : (⟨S4096x4096, .f32⟩ : BufTy).Contents (Elt Ideal))
    (x2 : (⟨S512x512, .f32⟩ : BufTy).Contents (Elt Ideal)) :
    val_main_v5 (F := Ideal) x0 x1 x2 = meanAgg x0 x1 x2 := by
  funext i
  obtain ⟨r, j, rfl⟩ : ∃ (r : Fin 4096) (j : Fin 512), i = ix2 r j := ⟨i 0, i 1, eq_ix2 i⟩
  rw [val_main_v5_apply, val_main_v3_apply, val_main_v4_apply, val_main_v2_apply, val_main_v1_apply, meanAgg_ix2]
  simp only [val_main_v0_apply, val_main_cst_apply, aggr_lhs, aggr_rhs, lin_lhs, lin_rhs, degree_idx,
    Ideal.hostDivf_def, Ideal.ofBits_def, Ideal.ofBits_zero_f32, zero_add]
  rfl

end Cert.GraphMean.Ref

end
-- ==== Proof.Pieces.lean ====
/-
  What each of the body's two control cases leaves behind, as values.

  At the grid's first point the body stores the whole scratch once: the linear layer's payload of the two whole
  input blocks (features and weights).  At every later point it stores the whole output block once: the payload of the
  adjacency strip and of what the scratch holds.  Each is one covering store through the whole-buffer rectangle, so
  what the buffer reads back is that store's payload, and the payload's loads read the buffers' contents.
-/
import proofs.«166464_g35794257445170_cont_sun_m_1054_13_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz : (![0, 0] : Fin 2 → Nat) = fun _ => 0 := funext fun a => by fin_cases a <;> rfl

/-- The first point: the scratch ends at the linear layer's payload of the features block and the weights block. -/
theorem scratch_first (c : Dev nD) (i : grid0.Coords) (arg1 : Memref sig .tc .vmem S4096x512 .f32) (harg1 : arg1.IsWhole)
    (arg2 : Memref sig .tc .vmem S512x512 .f32) (harg2 : arg2.IsWhole) (arg3 : Memref sig .tc .vmem S1024x4096 .f32) (harg3 : arg3.IsWhole)
    (arg4 : Memref sig .tc .vmem S1024x512 .f32) (harg4 : arg4.IsWhole) (arg5 : Memref sig .tc .vmem S4096x512 .bf16) (harg5 : arg5.IsWhole)
    (hc0 : cond0_0 i) (hc1 : ¬cond0_1 i)
    (x0 : Vec F S4096x512 .f32) (x1 : Vec F S512x512 .f32) (x2 : Vec F S1024x4096 .f32) :
    sout0_A_0 c i arg1 harg1 arg2 harg2 arg3 harg3 arg4 harg4 arg5 harg5 hc0 hc1 x0 x1 x2 = k0_pay1 x0 x1 := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_unit_zero hz]
  simp only [View.readAt_eq_ld, harg1.read_unread, harg2.read_unread, View.ld_unit_zero (S := S4096x512) hz,
    View.ld_unit_zero (S := S512x512) hz]

/-- A later point: the output block ends at the aggregation payload of the adjacency strip and the scratch's contents. -/
theorem out_later (c : Dev nD) (i : grid0.Coords) (arg1 : Memref sig .tc .vmem S4096x512 .f32) (harg1 : arg1.IsWhole)
    (arg2 : Memref sig .tc .vmem S512x512 .f32) (harg2 : arg2.IsWhole) (arg3 : Memref sig .tc .vmem S1024x4096 .f32) (harg3 : arg3.IsWhole)
    (arg4 : Memref sig .tc .vmem S1024x512 .f32) (harg4 : arg4.IsWhole) (arg5 : Memref sig .tc .vmem S4096x512 .bf16) (harg5 : arg5.IsWhole)
    (hc0 : ¬cond0_0 i) (hc1 : cond0_1 i)
    (x0 : Vec F S4096x512 .f32) (x1 : Vec F S512x512 .f32) (x2 : Vec F S1024x4096 .f32) (xs0 : Vec F S4096x512 .bf16) :
    out0_B_3 c i arg1 harg1 arg2 harg2 arg3 harg3 arg4 harg4 arg5 harg5 hc0 hc1 x0 x1 x2 xs0 = k0_pay2 x2 xs0 := by
  unfold out0_B_3
  rw [View.read_writes_eq_canon _ _ _ (cover0_B_3 c i arg1 harg1 arg2 harg2 arg3 harg3 arg4 harg4 arg5 harg5 hc0 hc1 x0 x1 x2 xs0)]
  unfold kernelRun0_B
  dsimp only
  sl_unfold_words
  rw [View.canon_unit_zero hz]
  simp only [View.readAt_eq_ld, harg3.read_unread, harg5.read_unread, View.ld_unit_zero (S := S1024x4096) hz,
    View.ld_unit_zero (S := S4096x512) hz]

end Cert.KernelIdeal.Pieces

end
-- ==== Proof.Payload.lean ====
/-
  The body's two payloads, read at an index over the extended reals.

  The first point's payload is the linear layer: a matrix product into a zero accumulator, narrowed to bf16 (the
  identity on extended reals) and cast to its own shape; at `(k, j)` it is `∑ l, x (k, l) · w (l, j)`.

  A later point's payload divides a matrix product of the adjacency strip (narrowed, again the identity) with the
  scratch by the strip's row sums, kept as a column and broadcast along the channels; at `(p, q)` of the block it is
  `(∑ k, a (p, k) · h (k, q)) / (∑ k, a (p, k))`.
-/
import proofs.«166464_g35794257445170_cont_sun_m_1054_13_alg».proof.Proof.Gen.KernelIdeal.Skeleton
import proofs.«166464_g35794257445170_cont_sun_m_1054_13_alg».proof.Proof.MeanSpec
import Idealize.ShloMosaic.PureOps.Ideal.Laws
import Idealize.ShloMosaic.Lib.ValueIdx
import Idealize.ShloMosaic.Lib.Pipeline.Value

noncomputable section

open scoped BigOperators

namespace Cert.KernelIdeal.Payload

open Cert.KernelIdeal Cert.KernelIdeal.Gen Idealize.ShloMosaic Idealize.ShloMosaic.ValueIdx Cert.GraphMean

/-! ### Two keepdims layout steps read at coordinates -/

/-- A vector `[a]` cast to a column `[a, 1]` reads, at `(i, u)`, the vector at `i`. -/
theorem shapeCast_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-! ### The linear layer's matrix product -/

theorem lhs_lin_0 (i : S4096x512.Idx) (q : dot_S4096x512_S512x512_S4096x512_1_0_0_1_n_n.contr.Idx) :
    (dot_S4096x512_S512x512_S4096x512_1_0_0_1_n_n.lhsIdx i q 0).val = (i 0).val := by
  unfold DotDims.lhsIdx
  rw [dif_neg (show ¬(0 : Fin S4096x512.rank) ∈ dot_S4096x512_S512x512_S4096x512_1_0_0_1_n_n.lhsBatch by decide), dif_pos (show (0 : Fin S4096x512.rank) ∈ dot_S4096x512_S512x512_S4096x512_1_0_0_1_n_n.lhsNonContracting by decide)]
  rfl
theorem lhs_lin_1 (i : S4096x512.Idx) (q : dot_S4096x512_S512x512_S4096x512_1_0_0_1_n_n.contr.Idx) :
    (dot_S4096x512_S512x512_S4096x512_1_0_0_1_n_n.lhsIdx i q 1).val = (q ⟨0, by decide⟩).val :=
  dot_S4096x512_S512x512_S4096x512_1_0_0_1_n_n.lhsIdx_val_of_single rfl i q
theorem rhs_lin_0 (i : S4096x512.Idx) (q : dot_S4096x512_S512x512_S4096x512_1_0_0_1_n_n.contr.Idx) :
    (dot_S4096x512_S512x512_S4096x512_1_0_0_1_n_n.rhsIdx i q 0).val = (q ⟨0, by decide⟩).val :=
  dot_S4096x512_S512x512_S4096x512_1_0_0_1_n_n.rhsIdx_val_of_single rfl i q
theorem rhs_lin_1 (i : S4096x512.Idx) (q : dot_S4096x512_S512x512_S4096x512_1_0_0_1_n_n.contr.Idx) :
    (dot_S4096x512_S512x512_S4096x512_1_0_0_1_n_n.rhsIdx i q 1).val = (i 1).val := by
  unfold DotDims.rhsIdx
  rw [dif_neg (show ¬(1 : Fin S512x512.rank) ∈ dot_S4096x512_S512x512_S4096x512_1_0_0_1_n_n.rhsBatch by decide), dif_pos (show (1 : Fin S512x512.rank) ∈ dot_S4096x512_S512x512_S4096x512_1_0_0_1_n_n.rhsNonContracting by decide)]
  rfl

/-- The product of features and weights into a zero accumulator, at `(k, j)`: the sum over the shared axis. -/
theorem lin_matmul (x : FVec Ideal S4096x512 .f32) (w : FVec Ideal S512x512 .f32) (k : Fin 4096) (j : Fin 512) :
    matmul dot_S4096x512_S512x512_S4096x512_1_0_0_1_n_n none x w (constant (F := Ideal) S4096x512 .f32 0x00000000#32) (ix2 k j)
      = ∑ l : Fin 512, x (ix2 k l) * w (ix2 l j) := by
  simp only [matmul]
  rw [Ideal.matmul_constant_zero_apply, ← Equiv.sum_comp (contrEquiv1 dot_S4096x512_S512x512_S4096x512_1_0_0_1_n_n 512 rfl rfl).symm]
  refine Finset.sum_congr rfl fun l _ => ?_
  have hk := contrEquiv1_symm_val dot_S4096x512_S512x512_S4096x512_1_0_0_1_n_n 512 rfl rfl l
  have el : dot_S4096x512_S512x512_S4096x512_1_0_0_1_n_n.lhsIdx (ix2 k j) ((contrEquiv1 dot_S4096x512_S512x512_S4096x512_1_0_0_1_n_n 512 rfl rfl).symm l) = ix2 k l := funext fun a => Fin.ext (by
    match a with
    | ⟨0, _⟩ => exact lhs_lin_0 _ _
    | ⟨1, _⟩ => exact (lhs_lin_1 _ _).trans hk)
  have er : dot_S4096x512_S512x512_S4096x512_1_0_0_1_n_n.rhsIdx (ix2 k j) ((contrEquiv1 dot_S4096x512_S512x512_S4096x512_1_0_0_1_n_n 512 rfl rfl).symm l) = ix2 l j := funext fun a => Fin.ext (by
    match a with
    | ⟨0, _⟩ => exact (rhs_lin_0 _ _).trans hk
    | ⟨1, _⟩ => exact rhs_lin_1 _ _)
  rw [el, er]

/-- The first point's payload at `(k, j)` is the linear layer's entry. -/
theorem lin_payload (x : FVec Ideal S4096x512 .f32) (w : FVec Ideal S512x512 .f32) (k : Fin 4096) (j : Fin 512) :
    k0_pay1 (F := Ideal) x w (ix2 k j) = lin x w k j := by
  unfold k0_pay1
  refine (congrFun (shapeCast_self _ _) (ix2 k j)).trans ?_
  exact lin_matmul x w k j

/-- So the first point's payload, as an array, is the linear layer. -/
theorem lin_payload_eq (x : FVec Ideal S4096x512 .f32) (w : FVec Ideal S512x512 .f32) :
    k0_pay1 (F := Ideal) x w = linArr x w := by
  funext i
  obtain ⟨k, j, rfl⟩ : ∃ (k : Fin 4096) (j : Fin 512), i = ix2 k j := ⟨i 0, i 1, eq_ix2 i⟩
  exact lin_payload x w k j

/-! ### The aggregation's matrix product and row sum -/

theorem lhs_agg_0 (i : S1024x512.Idx) (q : dot_S1024x4096_S4096x512_S1024x512_1_0_0_1_n_n.contr.Idx) :
    (dot_S1024x4096_S4096x512_S1024x512_1_0_0_1_n_n.lhsIdx i q 0).val = (i 0).val := by
  unfold DotDims.lhsIdx
  rw [dif_neg (show ¬(0 : Fin S1024x4096.rank) ∈ dot_S1024x4096_S4096x512_S1024x512_1_0_0_1_n_n.lhsBatch by decide), dif_pos (show (0 : Fin S1024x4096.rank) ∈ dot_S1024x4096_S4096x512_S1024x512_1_0_0_1_n_n.lhsNonContracting by decide)]
  rfl
theorem lhs_agg_1 (i : S1024x512.Idx) (q : dot_S1024x4096_S4096x512_S1024x512_1_0_0_1_n_n.contr.Idx) :
    (dot_S1024x4096_S4096x512_S1024x512_1_0_0_1_n_n.lhsIdx i q 1).val = (q ⟨0, by decide⟩).val :=
  dot_S1024x4096_S4096x512_S1024x512_1_0_0_1_n_n.lhsIdx_val_of_single rfl i q
theorem rhs_agg_0 (i : S1024x512.Idx) (q : dot_S1024x4096_S4096x512_S1024x512_1_0_0_1_n_n.contr.Idx) :
    (dot_S1024x4096_S4096x512_S1024x512_1_0_0_1_n_n.rhsIdx i q 0).val = (q ⟨0, by decide⟩).val :=
  dot_S1024x4096_S4096x512_S1024x512_1_0_0_1_n_n.rhsIdx_val_of_single rfl i q
theorem rhs_agg_1 (i : S1024x512.Idx) (q : dot_S1024x4096_S4096x512_S1024x512_1_0_0_1_n_n.contr.Idx) :
    (dot_S1024x4096_S4096x512_S1024x512_1_0_0_1_n_n.rhsIdx i q 1).val = (i 1).val := by
  unfold DotDims.rhsIdx
  rw [dif_neg (show ¬(1 : Fin S4096x512.rank) ∈ dot_S1024x4096_S4096x512_S1024x512_1_0_0_1_n_n.rhsBatch by decide), dif_pos (show (1 : Fin S4096x512.rank) ∈ dot_S1024x4096_S4096x512_S1024x512_1_0_0_1_n_n.rhsNonContracting by decide)]
  rfl

/-- The product of an adjacency strip with the resident features into a zero accumulator, at `(p, q)`. -/
theorem agg_matmul (a : FVec Ideal S1024x4096 .bf16) (h : FVec Ideal S4096x512 .bf16) (p : Fin 1024) (q : Fin 512) :
    matmul dot_S1024x4096_S4096x512_S1024x512_1_0_0_1_n_n none a h (constant (F := Ideal) S1024x512 .f32 0x00000000#32) (ix2 p q)
      = ∑ k : Fin 4096, a (ix2 p k) * h (ix2 k q) := by
  simp only [matmul]
  rw [Ideal.matmul_constant_zero_apply, ← Equiv.sum_comp (contrEquiv1 dot_S1024x4096_S4096x512_S1024x512_1_0_0_1_n_n 4096 rfl rfl).symm]
  refine Finset.sum_congr rfl fun k _ => ?_
  have hk := contrEquiv1_symm_val dot_S1024x4096_S4096x512_S1024x512_1_0_0_1_n_n 4096 rfl rfl k
  have el : dot_S1024x4096_S4096x512_S1024x512_1_0_0_1_n_n.lhsIdx (ix2 p q) ((contrEquiv1 dot_S1024x4096_S4096x512_S1024x512_1_0_0_1_n_n 4096 rfl rfl).symm k) = ix2 p k := funext fun a => Fin.ext (by
    match a with
    | ⟨0, _⟩ => exact lhs_agg_0 _ _
    | ⟨1, _⟩ => exact (lhs_agg_1 _ _).trans hk)
  have er : dot_S1024x4096_S4096x512_S1024x512_1_0_0_1_n_n.rhsIdx (ix2 p q) ((contrEquiv1 dot_S1024x4096_S4096x512_S1024x512_1_0_0_1_n_n 4096 rfl rfl).symm k) = ix2 k q := funext fun a => Fin.ext (by
    match a with
    | ⟨0, _⟩ => exact (rhs_agg_0 _ _).trans hk
    | ⟨1, _⟩ => exact rhs_agg_1 _ _)
  rw [el, er]

/-- The strip's row sums: at row `p` the sum over the strip's 4096 columns. -/
theorem strip_rowsum (a : FVec Ideal S1024x4096 .f32) (hr : S1024x4096.Reduces [1] S1024) (hφ : FKind.Formats .f32)
    (hacc : (0x00000000#32 : BitVec 32) = FKind.add.neutral .f32 hφ) (p : Fin 1024) :
    multiReduction (F := Ideal) .add [1] S1024 a 0x00000000#32 hr hφ hacc (ix1 p) = ∑ k : Fin 4096, a (ix2 p k) := by
  refine (Ideal.multiReduction_add_single a 0x00000000#32 hr hφ hacc (ix1 p)).trans ?_
  refine Finset.sum_congr rfl fun k _ => congrArg a (funext fun d => Fin.ext (by
    match d with
    | ⟨0, _⟩ => rfl
    | ⟨1, _⟩ => rfl))

/-- A later point's payload at `(p, q)`: the strip's row against the resident features' column, over the row's sum. -/
theorem agg_payload (a : FVec Ideal S1024x4096 .f32) (h : FVec Ideal S4096x512 .bf16) (p : Fin 1024) (q : Fin 512) :
    k0_pay2 (F := Ideal) a h (ix2 p q)
      = Ideal.div (∑ k : Fin 4096, a (ix2 p k) * h (ix2 k q)) (∑ k : Fin 4096, a (ix2 p k)) := by
  unfold k0_pay2
  refine congrArg₂ Ideal.div ?_ ?_
  · exact agg_matmul _ h p q
  · refine (broadcastTo_col_apply _ _ p q).trans ?_
    refine (shapeCast_col_apply _ _ p 0).trans ?_
    exact strip_rowsum a _ _ _ p

end Cert.KernelIdeal.Payload

end
-- ==== Proof.StripValue.lean ====
/-
  One output block of the layer.

  The adjacency matrix is cut into four strips of 1024 rows; row `p` of strip `s` is row `1024·s + p` of the matrix.
  When the resident features are the linear layer, the later points' payload of strip `s` is, entry by entry, the
  layer's rows `1024·s … 1024·s + 1023`: the same sums, read through the strip.
-/
import proofs.«166464_g35794257445170_cont_sun_m_1054_13_alg».proof.Proof.Payload

noncomputable section

open scoped BigOperators

namespace Cert.KernelIdeal.Payload

open Cert.KernelIdeal Cert.KernelIdeal.Gen Idealize.ShloMosaic Idealize.ShloMosaic.ValueIdx Cert.GraphMean

/-- Row `p` of strip `s` as a row of the whole matrix. -/
abbrev stripRow (s : ℕ) (hs : s < 4) (p : Fin 1024) : Fin 4096 := ⟨s * 1024 + p.val, by have := p.isLt; omega⟩

/-- The later points' payload of strip `s` and the linear layer is the layer on the strip's rows. -/
theorem strip_value (A : FVec Ideal S1024x4096 .f32) (adj : FVec Ideal S4096x4096 .f32) (x : FVec Ideal S4096x512 .f32)
    (w : FVec Ideal S512x512 .f32) (s : ℕ) (hs : s < 4)
    (hA : ∀ (p : Fin 1024) (k : Fin 4096), A (ix2 p k) = adj (ix2 (stripRow s hs p) k))
    (p : Fin 1024) (q : Fin 512) :
    k0_pay2 (F := Ideal) A (k0_pay1 (F := Ideal) x w) (ix2 p q) = meanAgg x adj w (ix2 (stripRow s hs p) q) := by
  refine (agg_payload A _ p q).trans ?_
  rw [meanAgg_ix2, lin_payload_eq]
  unfold aggr degree
  simp only [hA]

end Cert.KernelIdeal.Payload

end
-- ==== Proof.Layer.lean ====
/-
  The kernel's result array is the layer.

  The grid has five points.  At the first the body fills the scratch with the linear layer of the whole features and
  weights arrays (their windows' one block is the whole array), and the output window is idle: nothing is written back.
  No later point stores into the scratch, so at every point from the first on it holds the linear layer (induction on the
  point).  At point `t ≥ 1` the adjacency window's block is strip `t - 1` of the matrix, and the body leaves in the
  output block the aggregation payload of that strip and the scratch: rows `1024·(t-1) … 1024·(t-1) + 1023` of the layer,
  which is what the write-back at `t` puts into block `t - 1` of the result.  Row `r` of the result lies in the block
  written at point `r / 1024 + 1`, so the four write-backs cover the array.
-/
import proofs.«166464_g35794257445170_cont_sun_m_1054_13_alg».proof.Proof.Gen.KernelIdeal.Value
import proofs.«166464_g35794257445170_cont_sun_m_1054_13_alg».proof.Proof.Pieces
import proofs.«166464_g35794257445170_cont_sun_m_1054_13_alg».proof.Proof.StripValue

noncomputable section

namespace Cert.KernelIdeal.Layer

open Cert.KernelIdeal Cert.KernelIdeal.Gen Idealize.ShloMosaic Idealize.ShloMosaic.TcCoe Idealize.SL.Sem
open Idealize.ShloMosaic.ValueIdx Cert.GraphMean
open Idealize.ShloMosaic.Pipeline (Dat)

/-! ### The windows' index maps over the grid -/

/-- Features and weights always sit at block (0, 0); the adjacency and the result at block (t - 1, 0) — at (0, 0) at the first point. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = t.val - 1 ∧ win0_2.index t (1 : Fin 2) = 0
    ∧ win0_3.index t (0 : Fin 2) = t.val - 1 ∧ win0_3.index t (1 : Fin 2) = 0 :=
  (by decide +kernel : ∀ t : Fin grid0.N, _)

/-- The result's block is written back at every point but the first. -/
theorem flush_iff : ∀ t : Fin cfg0.N, (cfg0.win 3).flush t = true ↔ 1 ≤ t.val :=
  (by decide +kernel : ∀ t : Fin grid0.N, win0_3.flush t = true ↔ 1 ≤ t.val)

section AnyValues

variable {F : FTy → Type} [FloatOps F]
variable (m : (ℓ : Loc nD τ sig) → Buf (Elt F) ℓ)

/-- The three argument arrays as the region finds them. -/
abbrev xarr (c : Dev nD) : Vec F S4096x512 .f32 := V m c main_arg0
abbrev aarr (c : Dev nD) : Vec F S4096x4096 .f32 := V m c main_arg1
abbrev warr (c : Dev nD) : Vec F S512x512 .f32 := V m c main_arg2

/-- The input windows' blocks at a point. -/
abbrev xblk (c : Dev nD) (t : Fin cfg0.N) : Vec F S4096x512 .f32 := iblk m c 0 t
abbrev wblk (c : Dev nD) (t : Fin cfg0.N) : Vec F S512x512 .f32 := iblk m c 1 t
abbrev ablk (c : Dev nD) (t : Fin cfg0.N) : Vec F S1024x4096 .f32 := iblk m c 2 t

/-- The features window's one block is the whole features array. -/
theorem xblk_eq (c : Dev nD) (t : Fin cfg0.N) : xblk m c t = xarr m c := by
  obtain ⟨e0, e1, -⟩ := idx_facts t
  funext y
  show V m c main_arg0 (((cfg0.win 0).blk t).view.emb y) = V m c main_arg0 y
  refine congrArg _ (funext fun a => Fin.ext ?_)
  match a with
  | ⟨0, _⟩ => show win0_0.index t (0 : Fin 2) * 4096 + 1 * (y 0).val = (y 0).val; rw [e0]; omega
  | ⟨1, _⟩ => show win0_0.index t (1 : Fin 2) * 512 + 1 * (y 1).val = (y 1).val; rw [e1]; omega

/-- The weights window's one block is the whole weights array. -/
theorem wblk_eq (c : Dev nD) (t : Fin cfg0.N) : wblk m c t = warr m c := by
  obtain ⟨-, -, e2, e3, -⟩ := idx_facts t
  funext y
  show V m c main_arg2 (((cfg0.win 1).blk t).view.emb y) = V m c main_arg2 y
  refine congrArg _ (funext fun a => Fin.ext ?_)
  match a with
  | ⟨0, _⟩ => show win0_1.index t (0 : Fin 2) * 512 + 1 * (y 0).val = (y 0).val; rw [e2]; omega
  | ⟨1, _⟩ => show win0_1.index t (1 : Fin 2) * 512 + 1 * (y 1).val = (y 1).val; rw [e3]; omega

/-- From the second point on, the adjacency window's block is strip `t - 1` of the matrix. -/
theorem ablk_apply (c : Dev nD) (t : Fin cfg0.N) (hs : t.val - 1 < 4) (p : Fin 1024) (k : Fin 4096) :
    ablk m c t (ix2 p k) = aarr m c (ix2 (Payload.stripRow (t.val - 1) hs p) k) := by
  obtain ⟨-, -, -, -, e4, e5, -⟩ := idx_facts t
  show V m c main_arg1 (((cfg0.win 2).blk t).view.emb (ix2 p k)) = V m c main_arg1 (ix2 (Payload.stripRow (t.val - 1) hs p) k)
  refine congrArg _ (funext fun a => Fin.ext ?_)
  match a with
  | ⟨0, _⟩ => show win0_2.index t (0 : Fin 2) * 1024 + 1 * p.val = (t.val - 1) * 1024 + p.val; rw [e4]; omega
  | ⟨1, _⟩ => show win0_2.index t (1 : Fin 2) * 4096 + 1 * k.val = k.val; rw [e5]; omega

/-- What the scratch holds once filled: the linear layer's payload of the whole features and weights arrays. -/
abbrev resident (c : Dev nD) : Vec F S4096x512 .bf16 := k0_pay1 (xarr m c) (warr m c)

/-- After every point the scratch holds it: filled at the first point, untouched afterwards. -/
theorem scratch_eq (c : Dev nD) : ∀ (n : ℕ) (h : n < cfg0.N), (outsAt0 m c n h).2 = resident m c
  | 0, h => by
    have h0 : (⟨0, h⟩ : Fin cfg0.N).val % 5 = 0 := rfl
    have h1 : ¬1 ≤ (⟨0, h⟩ : Fin cfg0.N).val := by dsimp only; omega
    rw [outsAt0_A m c ⟨0, h⟩ h0 h1]
    dsimp only
    refine (Pieces.scratch_first c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) scM0_0 (Memref.isWhole_whole _)
      ((hcond0_0 ⟨0, h⟩).mpr h0) (fun hh => h1 ((hcond0_1 ⟨0, h⟩).mp hh))
      (xblk m c ⟨0, h⟩) (wblk m c ⟨0, h⟩) (ablk m c ⟨0, h⟩)).trans ?_
    exact congrArg₂ k0_pay1 (xblk_eq m c ⟨0, h⟩) (wblk_eq m c ⟨0, h⟩)
  | n + 1, h => by
    have hN : n + 1 < 5 := lt_of_lt_of_eq h (show cfg0.N = 5 from N_0)
    have h0 : ¬(⟨n + 1, h⟩ : Fin cfg0.N).val % 5 = 0 := by dsimp only; omega
    have h1 : 1 ≤ (⟨n + 1, h⟩ : Fin cfg0.N).val := by dsimp only; omega
    rw [outsAt0_B m c ⟨n + 1, h⟩ h0 h1]
    dsimp only
    unfold sout0_B_0
    exact scratch_eq c n (Nat.lt_of_succ_lt h)

/-- At a point after the first the output block is left at the aggregation payload of the point's strip and the scratch. -/
theorem out_eq (c : Dev nD) (t : Fin cfg0.N) (h1 : 1 ≤ t.val) :
    (outsAt0 m c t.val t.isLt).1 = k0_pay2 (ablk m c t) (resident m c) := by
  have hN : t.val < 5 := lt_of_lt_of_eq t.isLt (show cfg0.N = 5 from N_0)
  have h0 : ¬t.val % 5 = 0 := by omega
  rw [outsAt0_B m c t h0 h1]
  dsimp only
  refine (Pieces.out_later c (grid0.coords t) (ms0_0 t) (hs0_0 t) (ms0_1 t) (hs0_1 t) (ms0_2 t) (hs0_2 t) (ms0_3 t) (hs0_3 t)
    scM0_0 (Memref.isWhole_whole _) (fun hh => h0 ((hcond0_0 t).mp hh)) ((hcond0_1 t).mpr h1)
    (xblk m c t) (wblk m c t) (ablk m c t)
    (outsAt0 m c (t.val - 1) (Nat.lt_of_le_of_lt (Nat.sub_le _ _) t.isLt)).2).trans ?_
  exact congrArg (k0_pay2 (ablk m c t)) (scratch_eq m c (t.val - 1) _)

end AnyValues

/-! ### Over the extended reals -/

section ExtendedReals

variable (m : (ℓ : Loc nD τ sig) → Buf (Elt Ideal) ℓ) (ρ : Dev nD → PrngReg)

/-- The layer of the argument arrays, as contents of the result array. -/
abbrev layer (c : Dev nD) : Buf (Elt Ideal) ((c : Thread nD τ).loc main_v0) :=
  meanAgg (xarr m c) (aarr m c) (warr m c)

/-- What the write-back at a point after the first writes is that point's block of the layer. -/
theorem flushed_eq (c : Dev nD) (t : Fin cfg0.N) (hf : (cfg0.win 3).flush t = true) :
    (dats m 0 c).flushed 3 t = ((cfg0.win 3).blk t).view.read (Elt Ideal) (layer m c) := by
  have h1 : 1 ≤ t.val := (flush_iff t).mp hf
  have hN : t.val < 5 := lt_of_lt_of_eq t.isLt (show cfg0.N = 5 from N_0)
  have hs : t.val - 1 < 4 := by omega
  obtain ⟨-, -, -, -, -, -, e6, e7⟩ := idx_facts t
  rw [Value.flushed3, out_eq m c t h1]
  funext y
  show k0_pay2 (F := Ideal) (ablk m c t) (resident m c) y = layer m c (((cfg0.win 3).blk t).view.emb y)
  obtain ⟨p, q, rfl⟩ : ∃ (p : Fin 1024) (q : Fin 512), y = ix2 p q := ⟨y 0, y 1, eq_ix2 y⟩
  refine (Payload.strip_value (ablk m c t) (aarr m c) (xarr m c) (warr m c) (t.val - 1) hs
    (fun p k => ablk_apply m c t hs p k) p q).trans ?_
  refine congrArg (layer m c) (funext fun a => Fin.ext ?_)
  match a with
  | ⟨0, _⟩ => show (t.val - 1) * 1024 + p.val = win0_3.index t (0 : Fin 2) * 1024 + 1 * p.val; rw [e6]; omega
  | ⟨1, _⟩ => show q.val = win0_3.index t (1 : Fin 2) * 512 + 1 * q.val; rw [e7]; omega

/-- An index of the result is in point `t`'s block iff each coordinate is in the block's range on its axis. -/
theorem mem_blk (t : Fin cfg0.N) (i : S4096x512.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v0).slice (win0_3.rect t)).set ↔ _
  rw [View.set_slice_whole, Rect.mem_set_unit]
  exact Iff.rfl

/-- Row `r` of the result is written back at point `r / 1024 + 1`. -/
theorem covered (i : S4096x512.Idx) :
    ∃ t : Fin cfg0.N, (cfg0.win 3).flush t = true ∧ i ∈ ((cfg0.win 3).blk t).view.set := by
  have hi0 : (i 0).val < 4096 := (i 0).isLt
  have hi1 : (i 1).val < 512 := (i 1).isLt
  obtain ⟨t, ht⟩ : ∃ t : Fin cfg0.N, t.val = (i 0).val / 1024 + 1 :=
    ⟨⟨(i 0).val / 1024 + 1, lt_of_lt_of_eq (by omega : (i 0).val / 1024 + 1 < 5) (show cfg0.N = 5 from N_0).symm⟩, rfl⟩
  obtain ⟨-, -, -, -, -, -, e6, e7⟩ := idx_facts t
  refine ⟨t, (flush_iff t).mpr (by omega), ?_⟩
  rw [mem_blk]
  intro a
  match a with
  | ⟨0, _⟩ =>
    show win0_3.index t (0 : Fin 2) * 1024 ≤ (i 0).val ∧ (i 0).val < win0_3.index t (0 : Fin 2) * 1024 + 1024
    rw [e6]; omega
  | ⟨1, _⟩ =>
    show win0_3.index t (1 : Fin 2) * 512 ≤ (i 1).val ∧ (i 1).val < win0_3.index t (1 : Fin 2) * 512 + 512
    rw [e7]; omega

/-- So the result array ends holding the layer. -/
theorem final (c : Dev nD) : (dats m 0 c).arrAt 3 cfg0.N = layer m c :=
  (dats m 0 c).arrAt_eq_of_cover 3 (layer m c) (flushed_eq m c) covered

/-- The kernel's run over the extended reals: the result array at the layer of the arguments, the arguments unchanged. -/
theorem run : θ_run defs (onTc (τ := τ) (main (F := Ideal))) ⟨m, fun _ => 0, ρ⟩ fun r => ∀ c : Dev nD,
      r.2.mem ((c : Thread nD τ).loc main_v0)
        = meanAgg (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end ExtendedReals

end Cert.KernelIdeal.Layer

end
-- ==== Proof.lean ====
/-
  The certificate: a Pallas graph-convolution kernel with mean aggregation against its jnp reference,
  over the extended reals.

  Both programs compute, for features `x`, adjacency `adj` and weights `w`,

      out (r, j) = (∑ k, adj (r, k) · (∑ l, x (k, l) · w (l, j))) / (∑ k, adj (r, k)).

  The reference does it with two matrix products, a row sum from a zero initial value, two broadcasts and a quotient
  (RefIsMean).  The kernel runs a grid of five points: the first fills a resident scratch with `x · w` (its narrowing to
  bf16 is the identity on extended reals) and writes nothing back; each of the other four multiplies one strip of 1024
  adjacency rows (narrowed, again the identity) with the scratch, divides by the strip's row sums, and its block is written
  back to rows `1024·(t-1) …` of the result; the four blocks cover it (Layer, over Pieces, Payload and StripValue).  The two
  sides are the same nested sums, so the only law used is `0 + a = a`, and the precondition (finite inputs) is not needed:
  the quotient is the extended reals' total division on both sides.

  The frames of the two kernel programs are their generated frame runs; the reference's frame is its generated run with
  the result dropped; the idealization rewrote nothing, so `preserves` is `True`.
-/
import proofs.«166464_g35794257445170_cont_sun_m_1054_13_alg».proof.Defs
import proofs.«166464_g35794257445170_cont_sun_m_1054_13_alg».proof.Proof.Gen.Kernel
import proofs.«166464_g35794257445170_cont_sun_m_1054_13_alg».proof.Proof.Gen.Kernel.Skeleton
import proofs.«166464_g35794257445170_cont_sun_m_1054_13_alg».proof.Proof.Gen.Kernel.Launch
import proofs.«166464_g35794257445170_cont_sun_m_1054_13_alg».proof.Proof.Gen.Kernel.Points
import proofs.«166464_g35794257445170_cont_sun_m_1054_13_alg».proof.Proof.Gen.Kernel.Frame
import proofs.«166464_g35794257445170_cont_sun_m_1054_13_alg».proof.Proof.Gen.KernelIdeal
import proofs.«166464_g35794257445170_cont_sun_m_1054_13_alg».proof.Proof.Gen.KernelIdeal.Skeleton
import proofs.«166464_g35794257445170_cont_sun_m_1054_13_alg».proof.Proof.Gen.KernelIdeal.Launch
import proofs.«166464_g35794257445170_cont_sun_m_1054_13_alg».proof.Proof.Gen.KernelIdeal.Points
import proofs.«166464_g35794257445170_cont_sun_m_1054_13_alg».proof.Proof.Gen.KernelIdeal.Frame
import proofs.«166464_g35794257445170_cont_sun_m_1054_13_alg».proof.Proof.Gen.ReferenceIdeal
import proofs.«166464_g35794257445170_cont_sun_m_1054_13_alg».proof.Proof.Gen.Pre_finite_inputs
import proofs.«166464_g35794257445170_cont_sun_m_1054_13_alg».proof.Proof.Gen.KernelIdeal.Value
import proofs.«166464_g35794257445170_cont_sun_m_1054_13_alg».proof.Proof.Gen.ReferenceIdeal.Run
import proofs.«166464_g35794257445170_cont_sun_m_1054_13_alg».proof.Proof.Gen.ReferenceIdeal.Read
import proofs.«166464_g35794257445170_cont_sun_m_1054_13_alg».proof.Proof.RefIsMean
import proofs.«166464_g35794257445170_cont_sun_m_1054_13_alg».proof.Proof.Layer
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals the kernel's result array ends at the layer of its arguments (`Layer.run`) and the reference's
    at its composed term of arguments that agree, which is the same layer (`ref_is_meanAgg`). -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.GraphMean.Ref.ref_is_meanAgg, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
